-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one run of the kernel body leaves behind, case by case, as the body's stored values of the blocks it loaded
  (at any float instance):

    * at the first step of a run of eight (k = 0) the scratch is reset and then holds one accumulation step over
      the zero block;
    * at every later step the scratch holds one accumulation step over what the step before left;
    * at the last step (k = 7) the output block is the epilogue of the scratch just stored and the bias block.

  Each is the covering store's value read back: the stores are whole-block, at zero offsets, and a load of the
  scratch after a store reads what was stored.
-/
import proofs.«141140_j21251498180716_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The offset pair (0, 0) is the constant zero function on the two axes. -/
theorem hz : (![0, 0] : Fin 2 → Nat) = fun _ => 0 := funext fun a => by fin_cases a <;> rfl

/-- Case k = 0: the scratch ends at one accumulation step over the reset (zero) block. -/
theorem scratch_A (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x512 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h7.read_unread,
    View.ld_unit_zero (S := S1024x512) hz, View.ld_unit_zero (S := S1024x1024) hz, View.ld_unit_zero (S := S1x1024) hz]

/-- Case 0 < k < 7: the scratch ends at one accumulation step over what it held. -/
theorem scratch_B (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x512 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readCov_unit_zero (S := S1024x1024) _ hz, View.readAt_eq_ld, h3.read_unread, h4.read_unread, h5.read_unread, h7.read_unread,
    View.ld_unit_zero (S := S1024x512) hz, View.ld_unit_zero (S := S1024x1024) hz, View.ld_unit_zero (S := S1x1024) hz]

/-- Case k = 7: the scratch likewise, … -/
theorem scratch_C (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x512 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readCov_unit_zero (S := S1024x1024) _ hz, View.readAt_eq_ld, h3.read_unread, h4.read_unread, h5.read_unread, h7.read_unread,
    View.ld_unit_zero (S := S1024x512) hz, View.ld_unit_zero (S := S1024x1024) hz, View.ld_unit_zero (S := S1x1024) hz]

/-- … and the output block is the epilogue of that scratch and the bias block. -/
theorem out_C (c : Dev nD) (i : grid0.Coords) (a3 : Memref sig .tc .vmem S1024x512 .f32) (h3 : a3.IsWhole) (a4 : Memref sig .tc .vmem S1024x512 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x512 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S1024x1024) _ hz, View.readAt_eq_ld, h3.read_unread, h4.read_unread, h5.read_unread, h7.read_unread,
    View.ld_unit_zero (S := S1024x512) hz, View.ld_unit_zero (S := S1024x1024) hz, View.ld_unit_zero (S := S1x1024) hz]

end Cert.KernelIdeal.Pieces

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.Payload.lean ====
/-
  The three values the kernel body stores, read at an entry (r, c) of the 1024 × 1024 block over the extended reals,
  where a change of float format is the identity:

    * the reset stores zero everywhere;
    * an accumulation step stores acc[r, c] + Σ_{q < 512} x[r, q] · w[c, q], for the point's 1024 × 512 blocks x and w
      (a product with the transpose of w, into a zero accumulator, then added to what the scratch held);
    * the epilogue stores acc[r, c] + b[0, c], for the point's 1 × 1024 block b of the bias row (a broadcast down the rows).
-/
import proofs.«141140_j21251498180716_1_alg».proof.Proof.Gen.KernelIdeal.Skeleton
import proofs.«141140_j21251498180716_1_alg».proof.Proof.LibDotTransposedRhs
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The kernel's dimension numbers are those of a product with the transposed right operand. -/
theorem dot_eq : dot_S1024x512_S1024x512_S1024x1024_1_1_0_0_n_n = DotDims.transposedRhs 1024 512 1024 := rfl

/-- The reset block is zero. -/
theorem reset_apply (i : S1024x1024.Idx) : k0_pay1 (F := Ideal) i = 0 := by
  unfold k0_pay1
  rw [shapeCast_self, broadcast_apply]
  exact Ideal.ofBits_zero_f32

/-- An accumulation step at (r, c): what the scratch held there plus the blocks' product sum. -/
theorem step_apply (x w : Vec Ideal S1024x512 .f32) (acc : Vec Ideal S1024x1024 .f32) (r c : Fin 1024) :
    k0_pay2 (F := Ideal) x w acc (ix2 r c) = acc (ix2 r c) + ∑ q : Fin 512, x (ix2 r q) * w (ix2 c q) := by
  unfold k0_pay2
  rw [shapeCast_self, addf_apply]
  refine congrArg (acc (ix2 r c) + ·) ?_
  exact TransposedRhsDot.matmul_zero_apply 1024 512 1024 (φ₁ := .bf16) (φ₂ := .bf16)
    (truncf .bf16 x bitsLt_bf16_f32) (truncf .bf16 w bitsLt_bf16_f32) r c

/-- The epilogue at (r, c): the scratch there plus the bias block's entry for column c. -/
theorem epilogue_apply (acc : Vec Ideal S1024x1024 .f32) (b : Vec Ideal S1x1024 .f32) (r c : Fin 1024) :
    k0_pay3 (F := Ideal) acc b (ix2 r c) = acc (ix2 r c) + b (ix2 (0 : Fin 1) c) := by
  unfold k0_pay3
  rw [addf_apply, shapeCast_self, shapeCast_self]
  refine congrArg (acc (ix2 r c) + ·) ?_
  exact broadcastTo_apply b broadcasts_S1x1024_S1024x1024 (ix2 r c) (ix2 (0 : Fin 1) c) (fun a => match a with
    | ⟨0, _⟩ => by show (0 : ℕ) = if (1 : ℕ) = 1 then 0 else _; rw [if_pos rfl]
    | ⟨1, _⟩ => by show c.val = if (1024 : ℕ) = 1 then 0 else c.val; rw [if_neg (by decide)])

end Cert.KernelIdeal.Payload

end
-- ==== Proof.Spec.lean ====
/-
  What both programs compute, over the extended reals: for x, w of 4096 × 4096 entries and a bias of 4096 entries,

      out[a, b] = Σ_{k < 4096} x[a, k] · w[b, k] + bias[b].

  One side takes the contracted sum whole; the other takes it in eight consecutive runs of 512 coordinates, starting
  from zero and adding one run's partial sum at a time. Addition of extended reals is commutative and associative, so
  the two groupings agree with no condition on the entries: the whole sum over 4096 = 8 · 512 coordinates is the sum
  over the runs of each run's sum (the coordinate k = 512 · s + q re-indexed by the pair (s, q)).

  Entries are also read through accessors total in natural-number coordinates (zero outside the array), so that the
  arithmetic of block offsets stays in ℕ.
-/
import Idealize.ShloMosaic.Lib.ValueIdx

noncomputable section

open scoped BigOperators

namespace Cert.Spec

open Idealize.ShloMosaic Idealize.ShloMosaic.ValueIdx

/-- A 4096 × 4096 array of extended reals. -/
abbrev Mat : Type := (⟨2, ![4096, 4096]⟩ : Shape).Idx → EReal
/-- A vector of 4096 extended reals. -/
abbrev Row : Type := (⟨1, ![4096]⟩ : Shape).Idx → EReal

/-- The entry at natural-number coordinates (a, b); zero outside the array. -/
def at2 (X : Mat) (a b : ℕ) : EReal := if h : a < 4096 ∧ b < 4096 then X (ix2 ⟨a, h.1⟩ ⟨b, h.2⟩) else 0
/-- The entry at natural-number coordinate b; zero outside the vector. -/
def at1 (B : Row) (b : ℕ) : EReal := if h : b < 4096 then B (ix1 ⟨b, h⟩) else 0

theorem at2_of_lt (X : Mat) (a b : ℕ) (ha : a < 4096) (hb : b < 4096) : at2 X a b = X (ix2 ⟨a, ha⟩ ⟨b, hb⟩) :=
  dif_pos ⟨ha, hb⟩
theorem at1_of_lt (B : Row) (b : ℕ) (hb : b < 4096) : at1 B b = B (ix1 ⟨b, hb⟩) := dif_pos hb

/-- out[a, b] = Σ_k x[a, k] · w[b, k] + bias[b]. -/
def G (X W : Mat) (B : Row) : Mat :=
  fun i => (∑ k : Fin 4096, X (ix2 (i 0) k) * W (ix2 (i 1) k)) + B (ix1 (i 1))

/-- A sum over 4096 coordinates is the sum over 8 runs of the sums over each run's 512 coordinates. -/
theorem sum_runs {β : Type*} [AddCommMonoid β] (f : Fin 4096 → β) :
    ∑ k : Fin 4096, f k
      = ∑ s : Fin 8, ∑ q : Fin 512, f ⟨512 * s.val + q.val, by have := s.isLt; have := q.isLt; omega⟩ := by
  have e := Equiv.sum_comp (finProdFinEquiv (m := 8) (n := 512)) (fun k : Fin (8 * 512) => f k)
  rw [show (∑ k : Fin 4096, f k) = ∑ k : Fin (8 * 512), f k from rfl, ← e, Fintype.sum_prod_type]
  refine Finset.sum_congr rfl fun s _ => Finset.sum_congr rfl fun q _ => congrArg f (Fin.ext ?_)
  show q.val + 512 * s.val = 512 * s.val + q.val
  omega

/-- The grouped form: zero, plus the eight runs' partial sums in order, plus the bias, is out[a, b]. -/
theorem grouped (X W : Mat) (B : Row) (a b : Fin 4096) :
    (0 + ∑ s ∈ Finset.range 8, ∑ q : Fin 512, at2 X a.val (512 * s + q.val) * at2 W b.val (512 * s + q.val)) + at1 B b.val
      = G X W B (ix2 a b) := by
  unfold G
  rw [zero_add, Finset.sum_range, at1_of_lt B b.val b.isLt,
    sum_runs (fun k : Fin 4096 => X (ix2 ((ix2 a b : (⟨2, ![4096, 4096]⟩ : Shape).Idx) 0) k) * W (ix2 ((ix2 a b : (⟨2, ![4096, 4096]⟩ : Shape).Idx) 1) k))]
  refine congrArg₂ (· + ·) (Finset.sum_congr rfl fun s _ => Finset.sum_congr rfl fun q _ => ?_) rfl
  have hs := s.isLt
  have hq := q.isLt
  rw [at2_of_lt X a.val (512 * s.val + q.val) a.isLt (by omega), at2_of_lt W b.val (512 * s.val + q.val) b.isLt (by omega)]

end Cert.Spec

end
-- ==== Proof.Blocks.lean ====
/-
  Where the windows' blocks sit in the arrays. Grid point t of the 4 × 4 × 8 grid, counted row-major, is
  t = 32 · i + 8 · j + k with i = t / 32, j = t / 8 % 4, k = t % 8. At that point

    * the block of x is rows 1024 · i … and columns 512 · k … of x,
    * the block of w is rows 1024 · j … and columns 512 · k … of w,
    * the block of the bias row is columns 1024 · j … of the bias, laid out as one row of 4096,
    * the output block is rows 1024 · i … and columns 1024 · j … of the result.

  A block's coordinate inside its array is always (block index) · (block extent) + (coordinate inside the block).
-/
import proofs.«141140_j21251498180716_1_alg».proof.Proof.Gen.KernelIdeal.Frame
import proofs.«141140_j21251498180716_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The three arguments as launched on core c. -/
abbrev argX (c : Dev nD) : Mat := m ((c : Thread nD τ).loc main_arg0)
abbrev argW (c : Dev nD) : Mat := m ((c : Thread nD τ).loc main_arg1)
abbrev argB (c : Dev nD) : Row := m ((c : Thread nD τ).loc main_arg2)

/-- The printed index maps in closed form, decided over the 128 grid points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The block of x at point t, at (r, q), is x at (1024 · i + r, 512 · k + q). -/
theorem xblk_apply (c : Dev nD) (t : Fin cfg0.N) (r : Fin 1024) (q : Fin 512) :
    (iblk m c 0 t : Vec Ideal S1024x512 .f32) (ix2 r q)
      = at2 (argX m c) (1024 * (t.val / 32) + r.val) (512 * (t.val % 8) + q.val) := by
  obtain ⟨e0, e1, -⟩ := idx_facts t
  have ht : t.val < 128 := lt_of_lt_of_eq t.isLt N_0
  have hr := r.isLt
  have hq := q.isLt
  rw [at2_of_lt _ _ _ (by omega) (by omega)]
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = 1024 * (t.val / 32) + r.val; rw [e0]; omega
  | ⟨1, _⟩ => show win0_0.index t (1 : Fin 2) * 512 + 1 * q.val = 512 * (t.val % 8) + q.val; rw [e1]; omega

/-- The block of w at point t, at (r, q), is w at (1024 · j + r, 512 · k + q). -/
theorem wblk_apply (c : Dev nD) (t : Fin cfg0.N) (r : Fin 1024) (q : Fin 512) :
    (iblk m c 1 t : Vec Ideal S1024x512 .f32) (ix2 r q)
      = at2 (argW m c) (1024 * (t.val / 8 % 4) + r.val) (512 * (t.val % 8) + q.val) := by
  obtain ⟨-, -, e0, e1, -⟩ := idx_facts t
  have ht : t.val < 128 := lt_of_lt_of_eq t.isLt N_0
  have hr := r.isLt
  have hq := q.isLt
  rw [at2_of_lt _ _ _ (by omega) (by omega)]
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * r.val = 1024 * (t.val / 8 % 4) + r.val; rw [e0]; omega
  | ⟨1, _⟩ => show win0_1.index t (1 : Fin 2) * 512 + 1 * q.val = 512 * (t.val % 8) + q.val; rw [e1]; omega

/-- The array the third window stages: the bias laid out as one row of 4096 (the host's reshape before the call). -/
theorem biasRow_eq (c : Dev nD) :
    (V m c main_v0 : S1x4096.Idx → EReal) = shapeCast S1x4096 (m ((c : Thread nD τ).loc main_arg2)) shapeCasts_S4096_S1x4096 := by
  dsimp only [V, hostOps0]
  after_results
  rfl

/-- The bias block at point t, at (0, q), is the bias at 1024 · j + q. -/
theorem bblk_apply (c : Dev nD) (t : Fin cfg0.N) (q : Fin 1024) :
    (iblk m c 2 t : Vec Ideal S1x1024 .f32) (ix2 (0 : Fin 1) q) = at1 (argB m c) (1024 * (t.val / 8 % 4) + q.val) := by
  obtain ⟨-, -, -, -, e0, e1, -⟩ := idx_facts t
  have ht : t.val < 128 := lt_of_lt_of_eq t.isLt N_0
  have hq := q.isLt
  have hb : 1024 * (t.val / 8 % 4) + q.val < 4096 := by omega
  rw [at1_of_lt _ _ hb]
  unfold iblk
  rw [View.read_apply]
  show V m c main_v0 _ = _
  rw [biasRow_eq]
  refine shapeCast_apply _ _ _ (ix1 ⟨1024 * (t.val / 8 % 4) + q.val, hb⟩) ?_
  rw [Shape.rowMajor_val_one, Shape.rowMajor_val_two]
  show 1024 * (t.val / 8 % 4) + q.val = (win0_2.index t (0 : Fin 2) * 1 + 1 * 0) * 4096 + (win0_2.index t (1 : Fin 2) * 1024 + 1 * q.val)
  rw [e0, e1]
  omega

end Cert.KernelIdeal.Blocks

end
-- ==== Proof.Fold.lean ====
/-
  The kernel's result array, read off its run. The grid's 128 points fall into 16 runs of 8 consecutive points
  (one run per output block: t = 8 · (t / 8) + k, k = 0 … 7). Within a run the scratch is reset at k = 0 and every
  point adds its addend — the partial sum over the point's 512 contracted coordinates of x's row times w's row —
  so after the point at offset k the scratch holds zero plus the run's first k + 1 addends, in order. At k = 7 the
  output block is that scratch plus the bias block, and it is written back; these sixteen blocks tile the result array.

  Entry (1024 · i + r, 1024 · j + c') of the result is therefore

      (0 + Σ_{s < 8} Σ_{q < 512} x[1024 i + r, 512 s + q] · w[1024 j + c', 512 s + q]) + bias[1024 j + c'],

  which is the specification's value there (the regrouping of the contracted sum).
-/
import proofs.«141140_j21251498180716_1_alg».proof.Proof.Gen.KernelIdeal.Value
import proofs.«141140_j21251498180716_1_alg».proof.Proof.Pieces
import proofs.«141140_j21251498180716_1_alg».proof.Proof.Payload
import proofs.«141140_j21251498180716_1_alg».proof.Proof.Blocks
import proofs.«141140_j21251498180716_1_alg».proof.Proof.Spec
import Idealize.ShloMosaic.Lib.Pipeline.Value
import Idealize.ShloMosaic.Lib.ValueIdx

noncomputable section

open scoped BigOperators

namespace Cert.KernelIdeal.Fold

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Blocks

variable (m : (ℓ : Loc nD τ sig) → Buf (Elt Ideal) ℓ) (ρ : Dev nD → PrngReg)

/-- The blocks of x, w and the bias row at a point, at their literal types. -/
abbrev xb (c : Dev nD) (t : Fin cfg0.N) : Vec Ideal S1024x512 .f32 := iblk m c 0 t
abbrev wb (c : Dev nD) (t : Fin cfg0.N) : Vec Ideal S1024x512 .f32 := iblk m c 1 t
abbrev bb (c : Dev nD) (t : Fin cfg0.N) : Vec Ideal S1x1024 .f32 := iblk m c 2 t

/-- Point n's addend at entry i of the 1024 × 1024 block: the partial sum over the point's run of 512 contracted
    coordinates, for the rows of x and of w that the point's blocks hold. -/
def addend (c : Dev nD) (n : ℕ) (i : S1024x1024.Idx) : EReal :=
  ∑ q : Fin 512, at2 (argX m c) (1024 * (n / 32) + (i 0).val) (512 * (n % 8) + q.val)
    * at2 (argW m c) (1024 * (n / 8 % 4) + (i 1).val) (512 * (n % 8) + q.val)

/-- One accumulation step over the point's blocks, at (r, c'), adds the point's addend. -/
theorem step_blocks (c : Dev nD) (t : Fin cfg0.N) (acc : Vec Ideal S1024x1024 .f32) (r cc : Fin 1024) :
    k0_pay2 (F := Ideal) (xb m c t) (wb m c t) acc (ix2 r cc) = acc (ix2 r cc) + addend m c t.val (ix2 r cc) := by
  refine (Payload.step_apply (xb m c t) (wb m c t) acc r cc).trans ?_
  unfold addend
  refine congrArg (acc (ix2 r cc) + ·) (Finset.sum_congr rfl fun q _ => ?_)
  exact congrArg₂ (· * ·) (xblk_apply m c t r q) (wblk_apply m c t cc q)

/-- At a run's first point (n ≡ 0 mod 8) the scratch is left at zero plus the point's addend, whatever it held. -/
theorem reset_eq (c : Dev nD) (n : ℕ) (h : n < cfg0.N) (acc : Vec Ideal S1024x1024 .f32) (i : S1024x1024.Idx)
    (hn : n % 8 = 0) : Value.scAt0_0 m c n h acc i = 0 + addend m c n i := by
  obtain ⟨r, cc, rfl⟩ : ∃ (r cc : Fin 1024), i = ix2 r cc := ⟨i 0, i 1, eq_ix2 i⟩
  unfold Value.scAt0_0
  rw [dif_pos hn, dif_neg (by omega)]
  refine (congrFun (Pieces.scratch_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xb m c (⟨n, h⟩ : Fin cfg0.N)) (wb m c (⟨n, h⟩ : Fin cfg0.N)) (bb m c (⟨n, h⟩ : Fin cfg0.N))) (ix2 r cc)).trans ?_
  refine (step_blocks m c (⟨n, h⟩ : Fin cfg0.N) (k0_pay1 (F := Ideal)) r cc).trans ?_
  rw [Payload.reset_apply]

/-- At every other point the scratch is left at what it held plus the point's addend. -/
theorem step_eq (c : Dev nD) (n : ℕ) (h : n < cfg0.N) (acc : Vec Ideal S1024x1024 .f32) (i : S1024x1024.Idx)
    (hn : ¬n % 8 = 0) : Value.scAt0_0 m c n h acc i = acc i + addend m c n i := by
  obtain ⟨r, cc, rfl⟩ : ∃ (r cc : Fin 1024), i = ix2 r cc := ⟨i 0, i 1, eq_ix2 i⟩
  unfold Value.scAt0_0
  rw [dif_neg hn]
  by_cases h1 : n % 8 = 7
  · rw [dif_pos h1]
    refine (congrFun (Pieces.scratch_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xb m c (⟨n, h⟩ : Fin cfg0.N)) (wb m c (⟨n, h⟩ : Fin cfg0.N)) (bb m c (⟨n, h⟩ : Fin cfg0.N)) acc) (ix2 r cc)).trans ?_
    exact step_blocks m c (⟨n, h⟩ : Fin cfg0.N) acc r cc
  · rw [dif_neg h1]
    refine (congrFun (Pieces.scratch_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (xb m c (⟨n, h⟩ : Fin cfg0.N)) (wb m c (⟨n, h⟩ : Fin cfg0.N)) (bb m c (⟨n, h⟩ : Fin cfg0.N)) acc) (ix2 r cc)).trans ?_
    exact step_blocks m c (⟨n, h⟩ : Fin cfg0.N) acc r cc

/-- After point t the scratch holds zero plus the addends of t's run up to t. -/
theorem scratch_after (c : Dev nD) (t : Fin cfg0.N) (i : S1024x1024.Idx) :
    (outsAt0 m c t.val t.isLt).2 i
      = 0 + ∑ s ∈ Finset.range (t.val % 8 + 1), addend m c (8 * (t.val / 8) + s) i := by
  have ht : t.val < 128 := lt_of_lt_of_eq t.isLt N_0
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (addend m c)
    (8 * (t.val / 8)) 7
    (fun h i => reset_eq m c _ h _ i (by omega))
    (fun n h acc i hb he => step_eq m c n h acc i (by omega))
    (t.val % 8) (by omega) _ i

/-- The addend of the run's point at offset s, at (r, c'), in the coordinates of the whole arrays. -/
theorem addend_run (c : Dev nD) (t : Fin cfg0.N) (s : ℕ) (hs : s < 8) (r cc : Fin 1024) :
    addend m c (8 * (t.val / 8) + s) (ix2 r cc)
      = ∑ q : Fin 512, at2 (argX m c) (1024 * (t.val / 32) + r.val) (512 * s + q.val)
          * at2 (argW m c) (1024 * (t.val / 8 % 4) + cc.val) (512 * s + q.val) := by
  unfold addend
  rw [show (8 * (t.val / 8) + s) / 32 = t.val / 32 by omega, show (8 * (t.val / 8) + s) / 8 % 4 = t.val / 8 % 4 by omega,
    show (8 * (t.val / 8) + s) % 8 = s by omega]

/-- What a point with k = 7 writes back is its block of the specification's array. -/
theorem flushed_eq (c : Dev nD) (t : Fin cfg0.N) (hf : (cfg0.win 3).flush t = true) :
    (dats m 0 c).flushed 3 t = ((cfg0.win 3).blk t).view.read (Elt Ideal) (G (argX m c) (argW m c) (argB m c)) := by
  have h7 : t.val % 8 = 7 := (flush0_3 t).mp hf
  have h0 : ¬t.val % 8 = 0 := by omega
  have ht : t.val < 128 := lt_of_lt_of_eq t.isLt N_0
  obtain ⟨-, -, -, -, -, -, e0, e1⟩ := idx_facts t
  -- the scratch this point stores is one step over what the point before left
  have e2 : (outsAt0 m c t.val t.isLt).2
      = k0_pay2 (F := Ideal) (xb m c t) (wb m c t) (outsAt0 m c (t.val - 1) (Nat.lt_of_le_of_lt (Nat.sub_le _ _) t.isLt)).2 := by
    rw [outsAt0_C m c t h0 h7]
    dsimp only
    exact Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xb m c t) (wb m c t) (bb m c t) (outsAt0 m c (t.val - 1) (Nat.lt_of_le_of_lt (Nat.sub_le _ _) t.isLt)).2
  rw [Value.flushed3_C m c t h0 h7]
  funext j
  obtain ⟨r, cc, rfl⟩ : ∃ (r cc : Fin 1024), j = ix2 r cc := ⟨j 0, j 1, eq_ix2 j⟩
  have hr := r.isLt
  have hc := cc.isLt
  rw [View.read_apply]
  show _ = G (argX m c) (argW m c) (argB m c) (((cfg0.win 3).blk t).view.emb (ix2 r cc))
  refine (congrFun (Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xb m c t) (wb m c t) (bb m c t) (outsAt0 m c (t.val - 1) (Nat.lt_of_le_of_lt (Nat.sub_le _ _) t.isLt)).2) (ix2 r cc)).trans ?_
  rw [← e2]
  refine (Payload.epilogue_apply (outsAt0 m c t.val t.isLt).2 (bb m c t) r cc).trans ?_
  rw [scratch_after m c t (ix2 r cc), show t.val % 8 + 1 = 8 by omega,
    show bb m c t (ix2 (0 : Fin 1) cc) = at1 (argB m c) (1024 * (t.val / 8 % 4) + cc.val) from bblk_apply m c t cc,
    Finset.sum_congr rfl (fun s hs => addend_run m c t s (Finset.mem_range.mp hs) r cc)]
  refine (grouped (argX m c) (argW m c) (argB m c) ⟨1024 * (t.val / 32) + r.val, by omega⟩ ⟨1024 * (t.val / 8 % 4) + cc.val, by omega⟩).trans ?_
  refine congrArg (G (argX m c) (argW m c) (argB m c)) (funext fun a => Fin.ext ?_)
  match a with
  | ⟨0, _⟩ => show 1024 * (t.val / 32) + r.val = win0_3.index t (0 : Fin 2) * 1024 + 1 * r.val; rw [e0]; omega
  | ⟨1, _⟩ => show 1024 * (t.val / 8 % 4) + cc.val = win0_3.index t (1 : Fin 2) * 1024 + 1 * cc.val; rw [e1]; omega

/-- An index of the result array is in point t's output block iff each coordinate is in the block's range. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result array is in the block some k = 7 point writes back: entry (a, b) in that of the point
    32 · (a / 1024) + 8 · (b / 1024) + 7. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- The result array after the run is the specification's array of the arguments. -/
theorem final (c : Dev nD) : (dats m 0 c).arrAt 3 cfg0.N = G (argX m c) (argW m c) (argB m c) :=
  (dats m 0 c).arrAt_eq_of_cover 3 (G (argX m c) (argW m c) (argB m c)) (flushed_eq m c) cover

/-- The run, read: the result at the specification's array of the arguments as launched, the arguments unchanged. -/
theorem run : θ_run defs (onTc (τ := τ) (main (F := Ideal))) ⟨m, fun _ => 0, ρ⟩ fun r => ∀ c : Dev nD,
      r.2.mem ((c : Thread nD τ).loc main_v1) = G (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.Reference.lean ====
/-
  The reference's result is the specification's array: its product of x with the transpose of w, contracted whole
  over the 4096 coordinates, at (a, b) is Σ_k x[a, k] · w[b, k]; the bias, broadcast first to one row of 4096 and then
  down the 4096 rows, contributes bias[b]; the two are added entry by entry.
-/
import proofs.«141140_j21251498180716_1_alg».proof.Proof.Gen.ReferenceIdeal.Read
import proofs.«141140_j21251498180716_1_alg».proof.Proof.Spec

noncomputable section

open scoped BigOperators

namespace Cert.ReferenceIdeal.RefValue

open Cert.ReferenceIdeal Cert.ReferenceIdeal.Gen Idealize.ShloMosaic Idealize.ShloMosaic.ValueIdx Cert.Spec

/-- The reference's last stage, as a function of the three arguments, is out[a, b] = Σ_k x[a, k] · w[b, k] + bias[b]. -/
theorem result_eq (X W : Mat) (B : Row) : Read.val_main_v3 (F := Ideal) X W B = G X W B := by
  funext i
  -- the generated index functions are the coordinate constructors, axis by axis
  have el : ∀ k : Fin 4096, Read.lidx_main_v0 i k = ix2 (i 0) k := fun k =>
    funext fun a => by match a with | ⟨0, _⟩ => rfl | ⟨1, _⟩ => rfl
  have er : ∀ k : Fin 4096, Read.ridx_main_v0 i k = ix2 (i 1) k := fun k =>
    funext fun a => by match a with | ⟨0, _⟩ => rfl | ⟨1, _⟩ => rfl
  have eb : Read.idx_main_v1 (Read.idx_main_v2 i) = ix1 (i 1) :=
    funext fun a => by match a with | ⟨0, _⟩ => rfl
  rw [Read.val_main_v3_apply, Read.val_main_v0_apply, Read.val_main_v2_apply, Read.val_main_v1_apply, eb]
  simp only [el, er]
  rfl

end Cert.ReferenceIdeal.RefValue

end
-- ==== Proof.lean ====
/-
  The kernel computes out = x · wᵀ + bias for x, w of 4096 × 4096 entries and a bias of 4096 entries, tile by tile:
  the grid is 4 × 4 output blocks of 1024 × 1024 by 8 steps over the contracted axis, 512 coordinates a step. A
  scratch block is zeroed at a block's first step, every step adds the product of the step's 1024 × 512 blocks of x and
  w (w's block transposed), and at the last step the output block is the scratch plus the bias's block, broadcast down
  the rows. The reference takes the product whole — one contraction over all 4096 coordinates — and adds the
  bias broadcast to every row.

  Over the extended reals, where a change of float format is the identity, both are

      out[a, b] = Σ_{k < 4096} x[a, k] · w[b, k] + bias[b],

  the kernel's sum grouped into eight consecutive runs of 512 and started from zero, the reference's taken at once. The
  two groupings agree because addition of extended reals is commutative and associative; no finiteness of the entries
  is used, so the precondition is never opened.

  The three programs' runs (termination, no fault, the arguments unchanged) are the generated frames and the reference's
  generated run. The idealization rewrote nothing, so it is preserved trivially.
-/
import proofs.«141140_j21251498180716_1_alg».proof.Defs
import proofs.«141140_j21251498180716_1_alg».proof.Proof.Gen.Kernel
import proofs.«141140_j21251498180716_1_alg».proof.Proof.Gen.Kernel.Skeleton
import proofs.«141140_j21251498180716_1_alg».proof.Proof.Gen.Kernel.Launch
import proofs.«141140_j21251498180716_1_alg».proof.Proof.Gen.Kernel.Points
import proofs.«141140_j21251498180716_1_alg».proof.Proof.Gen.Kernel.Frame
import proofs.«141140_j21251498180716_1_alg».proof.Proof.Gen.KernelIdeal
import proofs.«141140_j21251498180716_1_alg».proof.Proof.Gen.KernelIdeal.Skeleton
import proofs.«141140_j21251498180716_1_alg».proof.Proof.Gen.KernelIdeal.Launch
import proofs.«141140_j21251498180716_1_alg».proof.Proof.Gen.KernelIdeal.Points
import proofs.«141140_j21251498180716_1_alg».proof.Proof.Gen.KernelIdeal.Frame
import proofs.«141140_j21251498180716_1_alg».proof.Proof.Gen.ReferenceIdeal
import proofs.«141140_j21251498180716_1_alg».proof.Proof.Gen.Pre_finite_inputs
import proofs.«141140_j21251498180716_1_alg».proof.Proof.Gen.KernelIdeal.Value
import proofs.«141140_j21251498180716_1_alg».proof.Proof.Gen.ReferenceIdeal.Run
import proofs.«141140_j21251498180716_1_alg».proof.Proof.Gen.ReferenceIdeal.Read
import proofs.«141140_j21251498180716_1_alg».proof.Proof.Fold
import proofs.«141140_j21251498180716_1_alg».proof.Proof.Reference
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs too: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array and the reference's both end at
    out[a, b] = Σ_k x[a, k] · w[b, k] + bias[b] of them. -/
theorem algebraic : Cert.algebraic_KernelIdeal_ReferenceIdeal := by
  intro m ρ m' ρ' _ hagree
  refine ⟨fun c => Cert.Spec.G (Cert.KernelIdeal.Blocks.argX m c) (Cert.KernelIdeal.Blocks.argW m c) (Cert.KernelIdeal.Blocks.argB m c),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
